-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S128x128x32 : Shape := ⟨3, ![128, 128, 32]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S128x128x32 : S_.BroadcastsInDim S128x128x32 (![] : Fin 0 → Fin S128x128x32.rank)
  reducesTo_S128x128x32_S_d0_1_2 : S128x128x32.ReducesTo [0, 1, 2] S_

variable [Facts]

def fn_part1 {F : FTy → Type} [FloatOps F] (main_arg4 : FVec F S128x128 .f32) (main_arg5 : FVec F S128x128 .f32) (main_v13 : IVec S_ 1) (main_v16 : IVec S128x128x32 1) : IVec S_ 1 :=
  let main_c_5 : IVec S_ 1 := constantI S_ 1 1#1
  let main_v17 : IVec S_ 1 := (fun x v => Host.reduce IntOp.andi x v reducesTo_S128x128x32_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : FVec F S128x128 .f32) (main_arg1 : FVec F S128x128x32 .f32) (main_arg2 : FVec F S128x128x32 .f32) (main_arg3 : FVec F S128x128x32 .f32) (main_arg4 : FVec F S128x128 .f32) (main_arg5 : FVec F S128x128 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128x32 .f32 := Host.absf main_arg1
  let main_cst_0 : FVec F S_ .f32 := constant S_ .f32 0x7F800000#32
  let main_v5 : FVec F S128x128x32 .f32 := broadcastInDim S128x128x32 ![] bcast_S_S128x128x32 main_cst_0
  let main_v6 : IVec S128x128x32 1 := cmpf .olt main_v4 main_v5
  let main_c_1 : IVec S_ 1 := constantI S_ 1 1#1
  let main_v7 : IVec S_ 1 := (fun x v => Host.reduce IntOp.andi x v reducesTo_S128x128x32_S_d0_1_2 h_S_) main_v6 main_c_1
  let main_v8 : IVec S_ 1 := andi main_v3 main_v7
  let main_v9 : FVec F S128x128x32 .f32 := Host.absf main_arg2
  let main_cst_2 : FVec F S_ .f32 := constant S_ .f32 0x7F800000#32
  let main_v10 : FVec F S128x128x32 .f32 := broadcastInDim S128x128x32 ![] bcast_S_S128x128x32 main_cst_2
  let main_v11 : IVec S128x128x32 1 := cmpf .olt main_v9 main_v10
  let main_c_3 : IVec S_ 1 := constantI S_ 1 1#1
  let main_v12 : IVec S_ 1 := (fun x v => Host.reduce IntOp.andi x v reducesTo_S128x128x32_S_d0_1_2 h_S_) main_v11 main_c_3
  let main_v13 : IVec S_ 1 := andi main_v8 main_v12
  let main_v14 : FVec F S128x128x32 .f32 := Host.absf main_arg3
  let main_cst_4 : FVec F S_ .f32 := constant S_ .f32 0x7F800000#32
  let main_v15 : FVec F S128x128x32 .f32 := broadcastInDim S128x128x32 ![] bcast_S_S128x128x32 main_cst_4
  let main_v16 : IVec S128x128x32 1 := cmpf .olt main_v14 main_v15
  fn_part1 (F := F) main_arg4 main_arg5 main_v13 main_v16
-- ==== Kernel.lean ====
abbrev S128x128 : Shape := ⟨2, ![128, 128]⟩
abbrev S128x128x32 : Shape := ⟨3, ![128, 128, 32]⟩
abbrev S8x128 : Shape := ⟨2, ![8, 128]⟩
abbrev S8x1x128x1 : Shape := ⟨4, ![8, 1, 128, 1]⟩
abbrev S1x128x128x32 : Shape := ⟨4, ![1, 128, 128, 32]⟩
abbrev S1x128x128x1 : Shape := ⟨4, ![1, 128, 128, 1]⟩
abbrev S1x128x128 : Shape := ⟨3, ![1, 128, 128]⟩
abbrev S8x128x128x32 : Shape := ⟨4, ![8, 128, 128, 32]⟩
abbrev S8x128x128 : Shape := ⟨3, ![8, 128, 128]⟩

abbrev nBuf : Space → Nat
  | .hbm => 8
  | .vmem => 11
  | .smem => 0
  | _ => 0

abbrev bufTy : (tb : Table) → Fin (tcTables nBuf tb) → BufTy
  | .hbm, ⟨0, _⟩ => ⟨S128x128, .f32⟩
  | .hbm, ⟨1, _⟩ => ⟨S128x128x32, .f32⟩
  | .hbm, ⟨2, _⟩ => ⟨S128x128x32, .f32⟩
  | .hbm, ⟨3, _⟩ => ⟨S128x128x32, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .local _ .vmem, ⟨0, _⟩ => ⟨S8x128, .f32⟩
  | .local _ .vmem, ⟨1, _⟩ => ⟨S8x128, .f32⟩
  | .local _ .vmem, ⟨2, _⟩ => ⟨S128x128x32, .f32⟩
  | .local _ .vmem, ⟨3, _⟩ => ⟨S128x128x32, .f32⟩
  | .local _ .vmem, ⟨4, _⟩ => ⟨S128x128x32, .f32⟩
  | .local _ .vmem, ⟨5, _⟩ => ⟨S128x128, .f32⟩
  | .local _ .vmem, ⟨6, _⟩ => ⟨S128x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8x128_S8x128_0_0 : ∀ a, (![0, 0] : Fin 2 → Nat) a + S8x128.size a ≤ S8x128.size a
  h_S8x128 : 0 < S8x128.numel
  inb_S128x128x32_S128x128x32_0_0_0 : ∀ a, (![0, 0, 0] : Fin 3 → Nat) a + S128x128x32.size a ≤ S128x128x32.size a
  h_S128x128x32 : 0 < S128x128x32.numel
  inb_S128x128_S128x128_0_0 : ∀ a, (![0, 0] : Fin 2 → Nat) a + S128x128.size a ≤ S128x128.size a
  h_S128x128 : 0 < S128x128.numel
  shapeCasts_S8x128_S8x1x128x1 : S8x128.ShapeCasts S8x1x128x1
  shapeCasts_S128x128x32_S1x128x128x32 : S128x128x32.ShapeCasts S1x128x128x32
  shapeCasts_S128x128_S1x128x128x1 : S128x128.ShapeCasts S1x128x128x1
  shapeCasts_S128x128_S1x128x128 : S128x128.ShapeCasts S1x128x128
  broadcasts_S8x1x128x1_S8x128x128x32 : S8x1x128x1.Broadcasts S8x128x128x32
  broadcasts_S1x128x128x32_S8x128x128x32 : S1x128x128x32.Broadcasts S8x128x128x32
  broadcasts_S1x128x128x1_S8x128x128x32 : S1x128x128x1.Broadcasts S8x128x128x32
  reduces_S8x128x128x32_S8x128x128 : S8x128x128x32.Reduces [3] S8x128x128
  broadcasts_S1x128x128_S8x128x128 : S1x128x128.Broadcasts S8x128x128
  reduces_S8x128x128_S8x128 : S8x128x128.Reduces [2] S8x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S128x128.size a
  hwx0_0 : ∀ i : grid0.Coords, EltTy.bits .f32 = 32 ∨ (Rect.block (s := S128x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128x32.size a ≤ S128x128x32.size a
  hwx0_1 : ∀ i : grid0.Coords, EltTy.bits .f32 = 32 ∨ (Rect.block (s := S128x128x32) S128x128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128x32.size a ≤ S128x128x32.size a
  hwx0_2 : ∀ i : grid0.Coords, EltTy.bits .f32 = 32 ∨ (Rect.block (s := S128x128x32) S128x128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128x32.size a ≤ S128x128x32.size a
  hwx0_3 : ∀ i : grid0.Coords, EltTy.bits .f32 = 32 ∨ (Rect.block (s := S128x128x32) S128x128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S128x128.size a
  hwx0_6 : ∀ i : grid0.Coords, EltTy.bits .f32 = 32 ∨ (Rect.block (s := S128x128) S8x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x128.size a ≤ S128x128.size a
  hwx0_7 : ∀ i : grid0.Coords, EltTy.bits .f32 = 32 ∨ (Rect.block (s := S128x128) S8x128.size (cc0_transform_7 i) (hinb0_7 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x128 : Shape := ⟨2, ![128, 128]⟩
abbrev S128x128x32 : Shape := ⟨3, ![128, 128, 32]⟩
abbrev S_ : Shape := ⟨0, ![]⟩
abbrev S128x1x128x1 : Shape := ⟨4, ![128, 1, 128, 1]⟩
abbrev S1x128x128x1 : Shape := ⟨4, ![1, 128, 128, 1]⟩
abbrev S1x128x128x32 : Shape := ⟨4, ![1, 128, 128, 32]⟩
abbrev S128x128x128x32 : Shape := ⟨4, ![128, 128, 128, 32]⟩
abbrev S128x128x128x1 : Shape := ⟨4, ![128, 128, 128, 1]⟩
abbrev S128x128x128 : Shape := ⟨3, ![128, 128, 128]⟩
abbrev S1x128x128 : Shape := ⟨3, ![1, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S128x128x32, .f32⟩
  | .hbm, ⟨2, _⟩ => ⟨S128x128x32, .f32⟩
  | .hbm, ⟨3, _⟩ => ⟨S128x128x32, .f32⟩
  | .hbm, ⟨4, _⟩ => ⟨S128x128, .f32⟩
  | .hbm, ⟨5, _⟩ => ⟨S128x128, .f32⟩
  | .hbm, ⟨6, _⟩ => ⟨S_, .f32⟩
  | .hbm, ⟨7, _⟩ => ⟨S128x128, .f32⟩
  | .hbm, ⟨8, _⟩ => ⟨S_, .f32⟩
  | .hbm, ⟨9, _⟩ => ⟨S128x128, .f32⟩
  | .hbm, ⟨10, _⟩ => ⟨S128x128, .f32⟩
  | .hbm, ⟨11, _⟩ => ⟨S128x128x32, .f32⟩
  | .hbm, ⟨12, _⟩ => ⟨S_, .f32⟩
  | .hbm, ⟨13, _⟩ => ⟨S128x128x32, .f32⟩
  | .hbm, ⟨14, _⟩ => ⟨S128x128x32, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x1x128x1, .f32⟩
  | .hbm, ⟨24, _⟩ => ⟨S128x1x128x1, .f32⟩
  | .hbm, ⟨25, _⟩ => ⟨S128x128, .f32⟩
  | .hbm, ⟨26, _⟩ => ⟨S1x128x128x1, .f32⟩
  | .hbm, ⟨27, _⟩ => ⟨S1x128x128x1, .f32⟩
  | .hbm, ⟨28, _⟩ => ⟨S1x128x128x32, .f32⟩
  | .hbm, ⟨29, _⟩ => ⟨S128x128x128x32, .f32⟩
  | .hbm, ⟨30, _⟩ => ⟨S128x128x128x32, .f32⟩
  | .hbm, ⟨31, _⟩ => ⟨S128x128x128x32, .f32⟩
  | .hbm, ⟨32, _⟩ => ⟨S128x128x128x1, .f32⟩
  | .hbm, ⟨33, _⟩ => ⟨S128x128x128x1, .f32⟩
  | .hbm, ⟨34, _⟩ => ⟨S128x128x128x1, .f32⟩
  | .hbm, ⟨35, _⟩ => ⟨S128x128x128x1, .f32⟩
  | .hbm, ⟨36, _⟩ => ⟨S128x128x128x1, .f32⟩
  | .hbm, ⟨37, _⟩ => ⟨S128x128x128x1, .f32⟩
  | .hbm, ⟨38, _⟩ => ⟨S128x128x128x1, .f32⟩
  | .hbm, ⟨39, _⟩ => ⟨S128x128x128x1, .f32⟩
  | .hbm, ⟨40, _⟩ => ⟨S128x128x128x32, .f32⟩
  | .hbm, ⟨41, _⟩ => ⟨S128x128x128x32, .f32⟩
  | .hbm, ⟨42, _⟩ => ⟨S_, .f32⟩
  | .hbm, ⟨43, _⟩ => ⟨S128x128x128x1, .f32⟩
  | .hbm, ⟨44, _⟩ => ⟨S128x128x128x1, .f32⟩
  | .hbm, ⟨45, _⟩ => ⟨S128x128x128x32, .f32⟩
  | .hbm, ⟨46, _⟩ => ⟨S128x128x128x32, .f32⟩
  | .hbm, ⟨47, _⟩ => ⟨S128x128x128x32, .f32⟩
  | .hbm, ⟨48, _⟩ => ⟨S128x128x128x32, .f32⟩
  | .hbm, ⟨49, _⟩ => ⟨S128x128x128x32, .f32⟩
  | .hbm, ⟨50, _⟩ => ⟨S_, .f32⟩
  | .hbm, ⟨51, _⟩ => ⟨S128x1x128x1, .f32⟩
  | .hbm, ⟨52, _⟩ => ⟨S128x1x128x1, .f32⟩
  | .hbm, ⟨53, _⟩ => ⟨S128x128x128x1, .f32⟩
  | .hbm, ⟨54, _⟩ => ⟨S128x128x128x1, .f32⟩
  | .hbm, ⟨55, _⟩ => ⟨S128x128x128x1, .f32⟩
  | .hbm, ⟨56, _⟩ => ⟨S1x128x128x1, .f32⟩
  | .hbm, ⟨57, _⟩ => ⟨S128x128x128x1, .f32⟩
  | .hbm, ⟨58, _⟩ => ⟨S128x128x128x1, .f32⟩
  | .hbm, ⟨59, _⟩ => ⟨S128x128x128x1, .f32⟩
  | .hbm, ⟨60, _⟩ => ⟨S128x128x128x1, .f32⟩
  | .hbm, ⟨61, _⟩ => ⟨S128x128x128x1, .f32⟩
  | .hbm, ⟨62, _⟩ => ⟨S128x128x128x32, .f32⟩
  | .hbm, ⟨63, _⟩ => ⟨S128x128x128x32, .f32⟩
  | .hbm, ⟨64, _⟩ => ⟨S128x128x128x32, .f32⟩
  | .hbm, ⟨65, _⟩ => ⟨S128x128x128x32, .f32⟩
  | .hbm, ⟨66, _⟩ => ⟨S128x128x128x32, .f32⟩
  | .hbm, ⟨67, _⟩ => ⟨S128x128x128x32, .f32⟩
  | .hbm, ⟨68, _⟩ => ⟨S128x128x128x32, .f32⟩
  | .hbm, ⟨69, _⟩ => ⟨S1x128x128x32, .f32⟩
  | .hbm, ⟨70, _⟩ => ⟨S128x128x128x32, .f32⟩
  | .hbm, ⟨71, _⟩ => ⟨S128x128x128x32, .f32⟩
  | .hbm, ⟨72, _⟩ => ⟨S_, .f32⟩
  | .hbm, ⟨73, _⟩ => ⟨S128x128x128, .f32⟩
  | .hbm, ⟨74, _⟩ => ⟨S1x128x128, .f32⟩
  | .hbm, ⟨75, _⟩ => ⟨S128x128x128, .f32⟩
  | .hbm, ⟨76, _⟩ => ⟨S128x128x128, .f32⟩
  | .hbm, ⟨77, _⟩ => ⟨S1x128x128, .f32⟩
  | .hbm, ⟨78, _⟩ => ⟨S128x128x32, .f32⟩
  | .hbm, ⟨79, _⟩ => ⟨S128x128x32, .f32⟩
  | .hbm, ⟨80, _⟩ => ⟨S1x128x128x32, .f32⟩
  | .hbm, ⟨81, _⟩ => ⟨S128x128x128x32, .f32⟩
  | .hbm, ⟨82, _⟩ => ⟨S128x128x128x32, .f32⟩
  | .hbm, ⟨83, _⟩ => ⟨S_, .f32⟩
  | .hbm, ⟨84, _⟩ => ⟨S128x128x128, .f32⟩
  | .hbm, ⟨85, _⟩ => ⟨S1x128x128, .f32⟩
  | .hbm, ⟨86, _⟩ => ⟨S128x128x128, .f32⟩
  | .hbm, ⟨87, _⟩ => ⟨S128x128x128, .f32⟩
  | .hbm, ⟨88, _⟩ => ⟨S_, .f32⟩
  | .hbm, ⟨89, _⟩ => ⟨S128x128x128, .f32⟩
  | .hbm, ⟨90, _⟩ => ⟨S128x128x128, .f32⟩
  | .hbm, ⟨91, _⟩ => ⟨S128x128x128, .f32⟩
  | .hbm, ⟨92, _⟩ => ⟨S128x128x128, .f32⟩
  | .hbm, ⟨93, _⟩ => ⟨S128x128x128, .f32⟩
  | .hbm, ⟨94, _⟩ => ⟨S128x128x128, .f32⟩
  | .hbm, ⟨95, _⟩ => ⟨S128x128x128, .f32⟩
  | .hbm, ⟨96, _⟩ => ⟨S128x128x128, .f32⟩
  | .hbm, ⟨97, _⟩ => ⟨S_, .f32⟩
  | .hbm, ⟨98, _⟩ => ⟨S128x128x128, .f32⟩
  | .hbm, ⟨99, _⟩ => ⟨S128x128x128, .f32⟩
  | .hbm, ⟨100, _⟩ => ⟨S_, .f32⟩
  | .hbm, ⟨101, _⟩ => ⟨S128x128, .f32⟩
  | .hbm, ⟨102, _⟩ => ⟨S_, .f32⟩
  | .hbm, ⟨103, _⟩ => ⟨S128x128, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_9 : Ref sig .tc := ⟨.hbm, 97, rfl⟩
abbrev main_v81 : Ref sig .tc := ⟨.hbm, 98, rfl⟩
abbrev main_v82 : Ref sig .tc := ⟨.hbm, 99, rfl⟩
abbrev main_cst_10 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩

abbrev nD : Nat := 1
abbrev τ : Topo := Topo.v7x

variable {F : FTy → Type} [FloatOps F]

class Facts₀ : Prop where
  bcast_S_S128x128 : S_.BroadcastsInDim S128x128 (![] : Fin 0 → Fin S128x128.rank)
  bcast_S_S128x128x32 : S_.BroadcastsInDim S128x128x32 (![] : Fin 0 → Fin S128x128x32.rank)
  bcast_S128x128_S128x1x128x1_0_2 : S128x128.BroadcastsInDim S128x1x128x1 (![0, 2] : Fin 2 → Fin S128x1x128x1.rank)
  bcast_S128x128_S1x128x128x1_1_2 : S128x128.BroadcastsInDim S1x128x128x1 (![1, 2] : Fin 2 → Fin S1x128x128x1.rank)
  bcast_S128x128x32_S1x128x128x32_1_2_3 : S128x128x32.BroadcastsInDim S1x128x128x32 (![1, 2, 3] : Fin 3 → Fin S1x128x128x32.rank)
  bcast_S128x1x128x1_S128x128x128x32_0_1_2_3 : S128x1x128x1.BroadcastsInDim S128x128x128x32 (![0, 1, 2, 3] : Fin 4 → Fin S128x128x128x32.rank)
  bcast_S1x128x128x32_S128x128x128x32_0_1_2_3 : S1x128x128x32.BroadcastsInDim S128x128x128x32 (![0, 1, 2, 3] : Fin 4 → Fin S128x128x128x32.rank)
  bcast_S1x128x128x1_S128x128x128x1_0_1_2_3 : S1x128x128x1.BroadcastsInDim S128x128x128x1 (![0, 1, 2, 3] : Fin 4 → Fin S128x128x128x1.rank)
  bcast_S128x1x128x1_S128x128x128x1_0_1_2_3 : S128x1x128x1.BroadcastsInDim S128x128x128x1 (![0, 1, 2, 3] : Fin 4 → Fin S128x128x128x1.rank)
  bcast_S_S128x128x128x1 : S_.BroadcastsInDim S128x128x128x1 (![] : Fin 0 → Fin S128x128x128x1.rank)
  bcast_S128x128x128x1_S128x128x128x32_0_1_2_3 : S128x128x128x1.BroadcastsInDim S128x128x128x32 (![0, 1, 2, 3] : Fin 4 → Fin S128x128x128x32.rank)
  bcast_S_S128x1x128x1 : S_.BroadcastsInDim S128x1x128x1 (![] : Fin 0 → Fin S128x1x128x1.rank)
  reducesTo_S128x128x128x32_S128x128x128_d3 : S128x128x128x32.ReducesTo [3] S128x128x128
  h_S_ : 0 < S_.numel
  bcast_S128x128_S1x128x128_1_2 : S128x128.BroadcastsInDim S1x128x128 (![1, 2] : Fin 2 → Fin S1x128x128.rank)
  bcast_S1x128x128_S128x128x128_0_1_2 : S1x128x128.BroadcastsInDim S128x128x128 (![0, 1, 2] : Fin 3 → Fin S128x128x128.rank)
  bcast_S_S128x128x128 : S_.BroadcastsInDim S128x128x128 (![] : Fin 0 → Fin S128x128x128.rank)
  reducesTo_S128x128x128_S128x128_d2 : S128x128x128.ReducesTo [2] S128x128

variable [Facts₀]

class Facts : Prop extends Facts₀ where

variable [Facts]
-- ==== Proof.LibRank4.lean ====
/-
  Re-laying and lane sums of a rank-4 elementwise computation, read at coordinates.

  A computation over a box of indices (row, output, input, point) meets its operands in three ways. A matrix is viewed
  with unit axes put in: `[a, b]` as `[1, a, b, 1]`, `[r, b]` as `[r, 1, b, 1]`. Such a view is repeated along its unit axes
  until it fills the box `[r, a, b, c]` (or `[r, a, b]`, one axis shorter). And the box is summed over its last axis. Each
  lemma below reads one of these at an index written out by its coordinates: the value there is the operand at the
  coordinates that survive, and a sum over the last axis is the sum over that coordinate. The extents are arbitrary.
-/
import Idealize.ShloMosaic.Lib.ValueLayout
import Idealize.ShloMosaic.PureOps.Ideal.Laws

namespace Idealize.ShloMosaic.ValueIdx

open Idealize.ShloMosaic

variable {α : Type}

/-! ## Two lane-by-lane functions at an index, on the extended reals -/

/-- The exponential of a vector reads, at an index, the exponential of the vector there. -/
theorem exp_apply {s : Shape} {φ : FTy} (a : FVec Ideal s φ) (i : s.Idx) : exp a i = Ideal.exp (a i) := rfl

/-- The square root of a vector reads, at an index, the square root of the vector there. -/
theorem sqrt_apply {s : Shape} {φ : FTy} (a : FVec Ideal s φ) (i : s.Idx) : sqrt a i = Ideal.sqrt (a i) := rfl

/-! ## A matrix viewed with unit axes put in -/

/-- An `[a, b]` matrix viewed as `[1, a, b, 1]` reads, at `(u, i, j, w)`, the matrix at `(i, j)`: both indices stand at
    row-major position `i · b + j`. -/
theorem shapeCast_ab_1ab1_apply {a b : ℕ} (x : (⟨2, ![a, b]⟩ : Shape).Idx → α)
    (h : (⟨2, ![a, b]⟩ : Shape).ShapeCasts ⟨4, ![1, a, b, 1]⟩) (u : Fin 1) (i : Fin a) (j : Fin b) (w : Fin 1) :
    shapeCast ⟨4, ![1, a, b, 1]⟩ x h (ix4 u i j w) = x (ix2 i j) :=
  shapeCast_apply x h _ _ (by
    have hu : u.val = 0 := by omega
    have hw : w.val = 0 := by omega
    rw [Shape.rowMajor_val_four, Shape.rowMajor_val_two]
    show i.val * b + j.val = ((u.val * a + i.val) * b + j.val) * 1 + w.val
    simp only [hu, hw, Nat.zero_mul, Nat.zero_add, Nat.mul_one, Nat.add_zero])

/-- An `[r, b]` matrix viewed as `[r, 1, b, 1]` reads, at `(p, u, i, w)`, the matrix at `(p, i)`: both indices stand at
    row-major position `p · b + i`. -/
theorem shapeCast_rb_r1b1_apply {r b : ℕ} (x : (⟨2, ![r, b]⟩ : Shape).Idx → α)
    (h : (⟨2, ![r, b]⟩ : Shape).ShapeCasts ⟨4, ![r, 1, b, 1]⟩) (p : Fin r) (u : Fin 1) (i : Fin b) (w : Fin 1) :
    shapeCast ⟨4, ![r, 1, b, 1]⟩ x h (ix4 p u i w) = x (ix2 p i) :=
  shapeCast_apply x h _ _ (by
    have hu : u.val = 0 := by omega
    have hw : w.val = 0 := by omega
    rw [Shape.rowMajor_val_four, Shape.rowMajor_val_two]
    show p.val * b + i.val = ((p.val * 1 + u.val) * b + i.val) * 1 + w.val
    simp only [hu, hw, Nat.mul_one, Nat.add_zero])

/-! ## A view repeated along its unit axes -/

/-- An `[r, 1, b, 1]` view repeated to `[r, a, b, c]` reads, at `(p, o, i, m)`, the view at `(p, 0, i, 0)`. -/
theorem broadcastTo_r1b1_rabc_apply {r a b c : ℕ} (x : (⟨4, ![r, 1, b, 1]⟩ : Shape).Idx → α)
    (h : (⟨4, ![r, 1, b, 1]⟩ : Shape).Broadcasts ⟨4, ![r, a, b, c]⟩) (p : Fin r) (o : Fin a) (i : Fin b) (m : Fin c) :
    broadcastTo ⟨4, ![r, a, b, c]⟩ x h (ix4 p o i m) = x (ix4 p (0 : Fin 1) i (0 : Fin 1)) := by
  refine broadcastTo_apply x h (ix4 p o i m) (ix4 p (0 : Fin 1) i (0 : Fin 1)) fun ax => ?_
  match ax with
  | ⟨0, _⟩ =>
    show p.val = if r = 1 then 0 else p.val
    split
    · have := p.isLt; omega
    · rfl
  | ⟨1, _⟩ => rfl
  | ⟨2, _⟩ =>
    show i.val = if b = 1 then 0 else i.val
    split
    · have := i.isLt; omega
    · rfl
  | ⟨3, _⟩ => rfl

/-- A `[1, a, b, c]` view repeated to `[r, a, b, c]` reads, at `(p, o, i, m)`, the view at `(0, o, i, m)`. -/
theorem broadcastTo_1abc_rabc_apply {r a b c : ℕ} (x : (⟨4, ![1, a, b, c]⟩ : Shape).Idx → α)
    (h : (⟨4, ![1, a, b, c]⟩ : Shape).Broadcasts ⟨4, ![r, a, b, c]⟩) (p : Fin r) (o : Fin a) (i : Fin b) (m : Fin c) :
    broadcastTo ⟨4, ![r, a, b, c]⟩ x h (ix4 p o i m) = x (ix4 (0 : Fin 1) o i m) := by
  refine broadcastTo_apply x h (ix4 p o i m) (ix4 (0 : Fin 1) o i m) fun ax => ?_
  match ax with
  | ⟨0, _⟩ => rfl
  | ⟨1, _⟩ =>
    show o.val = if a = 1 then 0 else o.val
    split
    · have := o.isLt; omega
    · rfl
  | ⟨2, _⟩ =>
    show i.val = if b = 1 then 0 else i.val
    split
    · have := i.isLt; omega
    · rfl
  | ⟨3, _⟩ =>
    show m.val = if c = 1 then 0 else m.val
    split
    · have := m.isLt; omega
    · rfl

/-- A `[1, a, b, 1]` view repeated to `[r, a, b, c]` reads, at `(p, o, i, m)`, the view at `(0, o, i, 0)`. -/
theorem broadcastTo_1ab1_rabc_apply {r a b c : ℕ} (x : (⟨4, ![1, a, b, 1]⟩ : Shape).Idx → α)
    (h : (⟨4, ![1, a, b, 1]⟩ : Shape).Broadcasts ⟨4, ![r, a, b, c]⟩) (p : Fin r) (o : Fin a) (i : Fin b) (m : Fin c) :
    broadcastTo ⟨4, ![r, a, b, c]⟩ x h (ix4 p o i m) = x (ix4 (0 : Fin 1) o i (0 : Fin 1)) := by
  refine broadcastTo_apply x h (ix4 p o i m) (ix4 (0 : Fin 1) o i (0 : Fin 1)) fun ax => ?_
  match ax with
  | ⟨0, _⟩ => rfl
  | ⟨1, _⟩ =>
    show o.val = if a = 1 then 0 else o.val
    split
    · have := o.isLt; omega
    · rfl
  | ⟨2, _⟩ =>
    show i.val = if b = 1 then 0 else i.val
    split
    · have := i.isLt; omega
    · rfl
  | ⟨3, _⟩ => rfl

/-- A `[1, a, b]` view repeated to `[r, a, b]` reads, at `(p, o, i)`, the view at `(0, o, i)`. -/
theorem broadcastTo_1ab_rab_apply {r a b : ℕ} (x : (⟨3, ![1, a, b]⟩ : Shape).Idx → α)
    (h : (⟨3, ![1, a, b]⟩ : Shape).Broadcasts ⟨3, ![r, a, b]⟩) (p : Fin r) (o : Fin a) (i : Fin b) :
    broadcastTo ⟨3, ![r, a, b]⟩ x h (ix3 p o i) = x (ix3 (0 : Fin 1) o i) := by
  refine broadcastTo_apply x h (ix3 p o i) (ix3 (0 : Fin 1) o i) fun ax => ?_
  match ax with
  | ⟨0, _⟩ => rfl
  | ⟨1, _⟩ =>
    show o.val = if a = 1 then 0 else o.val
    split
    · have := o.isLt; omega
    · rfl
  | ⟨2, _⟩ =>
    show i.val = if b = 1 then 0 else i.val
    split
    · have := i.isLt; omega
    · rfl

/-! ## Sums over the last axis, on the extended reals

The accumulator of a sum is the zero word, and the evidence that it is the sum's neutral word is stated here as the
equation of the zero word with itself: that is the form in which a printed program carries it. -/

/-- The sum of an `[r, a, b, c]` box over its last axis is, at `(p, o, i)`, the sum over `m` of the box at `(p, o, i, m)`. -/
theorem multiReduction_add_axis3_apply {r a b c : ℕ} (v : FVec Ideal ⟨4, ![r, a, b, c]⟩ .f32)
    (h : (⟨4, ![r, a, b, c]⟩ : Shape).Reduces [3] ⟨3, ![r, a, b]⟩) (hφ : FKind.Formats .f32)
    (hacc : (0x00000000#32 : BitVec 32) = 0x00000000#32) (p : Fin r) (o : Fin a) (i : Fin b) :
    multiReduction .add [3] ⟨3, ![r, a, b]⟩ v 0x00000000#32 h hφ hacc (ix3 p o i) = ∑ m : Fin c, v (ix4 p o i m) :=
  (Ideal.multiReduction_add_single v 0x00000000#32 h hφ hacc (ix3 p o i)).trans
    (Finset.sum_congr rfl fun m _ => congrArg v (funext fun e => Fin.ext (by
      match e with | ⟨0, _⟩ => rfl | ⟨1, _⟩ => rfl | ⟨2, _⟩ => rfl | ⟨3, _⟩ => rfl)))

/-- The sum of an `[r, a, b]` box over its last axis is, at `(p, o)`, the sum over `i` of the box at `(p, o, i)`. -/
theorem multiReduction_add_axis2_apply {r a b : ℕ} (v : FVec Ideal ⟨3, ![r, a, b]⟩ .f32)
    (h : (⟨3, ![r, a, b]⟩ : Shape).Reduces [2] ⟨2, ![r, a]⟩) (hφ : FKind.Formats .f32)
    (hacc : (0x00000000#32 : BitVec 32) = 0x00000000#32) (p : Fin r) (o : Fin a) :
    multiReduction .add [2] ⟨2, ![r, a]⟩ v 0x00000000#32 h hφ hacc (ix2 p o) = ∑ i : Fin b, v (ix3 p o i) :=
  (Ideal.multiReduction_add_single v 0x00000000#32 h hφ hacc (ix2 p o)).trans
    (Finset.sum_congr rfl fun i _ => congrArg v (funext fun e => Fin.ext (by
      match e with | ⟨0, _⟩ => rfl | ⟨1, _⟩ => rfl | ⟨2, _⟩ => rfl)))

end Idealize.ShloMosaic.ValueIdx
-- ==== Proof.Spec.lean ====
/-
  What both programs compute, on the extended reals, as functions of coordinates.

  An edge (o, i) of the layer has a length scale and a signal variance, each the exponential of a learned logarithm held
  above a floor; an inducing point m of the edge has a location z, a posterior mean and a posterior variance (again an
  exponential above a floor). A row of inputs `xr` meets the edge's inducing points through two Gaussian moments,
    ψ₁ = s · √(ℓ² / (ℓ² + ε))  · exp(−(xr i − z)² / (2 (ℓ² + ε))),
    ψ₂ = s² · √(ℓ² / (ℓ² + 2ε)) · exp(−(xr i − z)² / (ℓ² + 2ε)),
  with ε the input variance. The edge's mean is Σₘ ψ₁ μ over s, its variance
  s − (Σₘ ψ₂)/s + (Σₘ ψ₂ (v + μ²))/s² − mean², held above a floor, and a row's two results at output o are the sums of
  these over the inputs i. Every operation is the extended reals' own (the quotient with its conventions at zero and
  at the infinities), grouped exactly as both programs group them; no law of arithmetic is used to state or to meet
  this function, so nothing here asks the inputs to be finite.

  The two programs differ in how they spell two numbers. One writes 2ε as a single float, the other doubles the float
  ε: `two_mul_inVar` says the two floats stand in that ratio exactly (same significand, exponents one apart).
-/
import Idealize.ShloMosaic.PureOps.Ideal
import Idealize.ShloMosaic.PureOps.Ideal.Laws
import Idealize.ShloMosaic.Lib.ValueIdx

noncomputable section

namespace Cert.Moments

open Idealize.ShloMosaic Idealize.ShloMosaic.ValueIdx

/-- A table indexed by (output, input) — or, for the inputs, by (row, input). -/
abbrev Mat : Type := FVec Ideal ⟨2, ![128, 128]⟩ .f32
/-- A table indexed by (output, input, inducing point). -/
abbrev Cube : Type := FVec Ideal ⟨3, ![128, 128, 32]⟩ .f32

/-- The floor under both variances, the float nearest 1e-5. -/
abbrev varFloor : EReal := Ideal.ofBits .f32 0x3727C5AC#32
/-- The floor under the length scale, the float nearest 0.1. -/
abbrev scaleFloor : EReal := Ideal.ofBits .f32 0x3DCCCCCD#32
/-- The input variance ε, the float nearest 1e-6; also the floor under an edge's variance. -/
abbrev inVar : EReal := Ideal.ofBits .f32 0x358637BD#32
/-- 2ε written as one float, the float nearest 2e-6. -/
abbrev inVar2 : EReal := Ideal.ofBits .f32 0x360637BD#32
/-- The float 2. -/
abbrev two : EReal := Ideal.ofBits .f32 0x40000000#32

/-- Doubling the float ε gives the float 2ε: both have significand 8796093, with exponents −43 and −42. -/
theorem two_mul_inVar : two * inVar = inVar2 := by
  simp [Ideal.ofBits, Ideal.ieee, -EReal.coe_mul]
  rw [← EReal.coe_mul]
  norm_num

/-- The signal variance of edge (o, i). -/
def sigVar (lv : Mat) (o i : Fin 128) : EReal := max (Ideal.exp (lv (ix2 o i))) varFloor

/-- The squared length scale of edge (o, i). -/
def len2 (ls : Mat) (o i : Fin 128) : EReal :=
  max (Ideal.exp (ls (ix2 o i))) scaleFloor * max (Ideal.exp (ls (ix2 o i))) scaleFloor

/-- The posterior variance at inducing point m of edge (o, i). -/
def postVar (qlv : Cube) (o i : Fin 128) (m : Fin 32) : EReal := max (Ideal.exp (qlv (ix3 o i m))) varFloor

/-- Minus the squared distance from the row's input i to inducing point m of edge (o, i). -/
def negSq (xr : Fin 128 → EReal) (z : Cube) (o i : Fin 128) (m : Fin 32) : EReal :=
  -((xr i - z (ix3 o i m)) * (xr i - z (ix3 o i m)))

/-- The first moment ψ₁ of the kernel between the row's input i and inducing point m of edge (o, i). -/
def psi1 (xr : Fin 128 → EReal) (z : Cube) (ls lv : Mat) (o i : Fin 128) (m : Fin 32) : EReal :=
  sigVar lv o i * Ideal.sqrt (Ideal.div (len2 ls o i) (len2 ls o i + inVar))
    * Ideal.exp (Ideal.div (negSq xr z o i m) (two * (len2 ls o i + inVar)))

/-- The second moment ψ₂. -/
def psi2 (xr : Fin 128 → EReal) (z : Cube) (ls lv : Mat) (o i : Fin 128) (m : Fin 32) : EReal :=
  sigVar lv o i * sigVar lv o i * Ideal.sqrt (Ideal.div (len2 ls o i) (len2 ls o i + inVar2))
    * Ideal.exp (Ideal.div (negSq xr z o i m) (len2 ls o i + inVar2))

/-- The mean edge (o, i) contributes for the row. -/
def edgeMean (xr : Fin 128 → EReal) (z qmu : Cube) (ls lv : Mat) (o i : Fin 128) : EReal :=
  Ideal.div (∑ m : Fin 32, psi1 xr z ls lv o i m * qmu (ix3 o i m)) (sigVar lv o i)

/-- The variance edge (o, i) contributes for the row. -/
def edgeVar (xr : Fin 128 → EReal) (z qmu qlv : Cube) (ls lv : Mat) (o i : Fin 128) : EReal :=
  max (sigVar lv o i - Ideal.div (∑ m : Fin 32, psi2 xr z ls lv o i m) (sigVar lv o i)
        + Ideal.div (∑ m : Fin 32, psi2 xr z ls lv o i m * (postVar qlv o i m + qmu (ix3 o i m) * qmu (ix3 o i m)))
            (sigVar lv o i * sigVar lv o i)
        - edgeMean xr z qmu ls lv o i * edgeMean xr z qmu ls lv o i) inVar

/-- The row's mean at output o. -/
def rowMean (xr : Fin 128 → EReal) (z qmu : Cube) (ls lv : Mat) (o : Fin 128) : EReal :=
  ∑ i : Fin 128, edgeMean xr z qmu ls lv o i

/-- The row's variance at output o. -/
def rowVar (xr : Fin 128 → EReal) (z qmu qlv : Cube) (ls lv : Mat) (o : Fin 128) : EReal :=
  ∑ i : Fin 128, edgeVar xr z qmu qlv ls lv o i

/-- The means of every row, as one table over (row, output). -/
def meanOut (x : Mat) (z qmu : Cube) (ls lv : Mat) : Mat :=
  fun j => rowMean (fun i => x (ix2 (j 0) i)) z qmu ls lv (j 1)

/-- The variances of every row, as one table over (row, output). -/
def varOut (x : Mat) (z qmu qlv : Cube) (ls lv : Mat) : Mat :=
  fun j => rowVar (fun i => x (ix2 (j 0) i)) z qmu qlv ls lv (j 1)

theorem meanOut_apply (x : Mat) (z qmu : Cube) (ls lv : Mat) (n o : Fin 128) :
    meanOut x z qmu ls lv (ix2 n o) = rowMean (fun i => x (ix2 n i)) z qmu ls lv o := rfl

theorem varOut_apply (x : Mat) (z qmu qlv : Cube) (ls lv : Mat) (n o : Fin 128) :
    varOut x z qmu qlv ls lv (ix2 n o) = rowVar (fun i => x (ix2 n i)) z qmu qlv ls lv o := rfl

end Cert.Moments

end
-- ==== Proof.KernelRows.lean ====
/-
  The kernel's body on one block of rows, read at coordinates.

  The body loads an 8-row block `xb` of the inputs and the five parameter tables whole, and computes two 8 × 128 results.
  Read at (r, o), each is a sum over the inputs i of a per-edge quantity that itself sums over the inducing points m:
  the tables enter through views with unit axes, repeated over the box (r, o, i, m), so at a point of the box each view
  gives back the table's entry at the coordinates it keeps. The per-edge quantities are the specification's
  `edgeMean` and `edgeVar` for the row r of the block; the body negates the squared distance by subtracting it from
  zero, which on the extended reals is negation.
-/
import proofs.«164799_j59416577572914_1_alg».proof.Proof.Gen.KernelIdeal.Skeleton
import proofs.«164799_j59416577572914_1_alg».proof.Proof.LibRank4
import proofs.«164799_j59416577572914_1_alg».proof.Proof.Spec

noncomputable section

namespace Cert.KernelIdeal.Rows

open Idealize.ShloMosaic Idealize.ShloMosaic.ValueIdx Cert.KernelIdeal Cert.KernelIdeal.Gen Cert.Moments

variable (xb : FVec Ideal S8x128 .f32) (z qmu qlv : FVec Ideal S128x128x32 .f32) (ls lv : FVec Ideal S128x128 .f32)
variable (r : Fin 8) (o i : Fin 128) (m : Fin 32) (u w : Fin 1)

/-! ## The parameter tables through their views -/

/-- The floored signal variance, entry by entry. -/
theorem sig_at : k0_pay1 (F := Ideal) lv (ix2 o i) = sigVar lv o i := rfl

/-- … seen through the view with a unit axis on each side, -/
theorem sig4_at : k0_pay5 (F := Ideal) lv (ix4 u o i w) = sigVar lv o i :=
  (shapeCast_ab_1ab1_apply (k0_pay1 (F := Ideal) lv) shapeCasts_S128x128_S1x128x128x1 u o i w).trans (sig_at lv o i)

/-- … and through the view with a leading unit axis. -/
theorem sig3_at : k0_pay6 (F := Ideal) lv (ix3 u o i) = sigVar lv o i :=
  (shapeCast_ab_1ab_apply (k0_pay1 (F := Ideal) lv) shapeCasts_S128x128_S1x128x128 u o i).trans (sig_at lv o i)

/-- The squared length scale through its view. -/
theorem len2_at : k0_pay4 (F := Ideal) ls (ix4 u o i w) = len2 ls o i := by
  unfold k0_pay4
  exact (shapeCast_ab_1ab1_apply _ shapeCasts_S128x128_S1x128x128x1 u o i w).trans rfl

/-- The inducing locations through their view. -/
theorem loc_at : k0_pay3 (F := Ideal) z (ix4 u o i m) = z (ix3 o i m) :=
  shapeCast_abc_1abc_apply z shapeCasts_S128x128x32_S1x128x128x32 u o i m

/-- The posterior means through their view. -/
theorem mu_at : k0_pay7 (F := Ideal) qmu (ix4 u o i m) = qmu (ix3 o i m) :=
  shapeCast_abc_1abc_apply qmu shapeCasts_S128x128x32_S1x128x128x32 u o i m

/-- The floored posterior variances through their view. -/
theorem postVar_at : k0_pay8 (F := Ideal) qlv (ix4 u o i m) = postVar qlv o i m := by
  unfold k0_pay8
  exact (shapeCast_abc_1abc_apply _ shapeCasts_S128x128x32_S1x128x128x32 u o i m).trans rfl

/-- The block of inputs through its view. -/
theorem row_at : k0_pay2 (F := Ideal) xb (ix4 r u i w) = xb (ix2 r i) :=
  shapeCast_rb_r1b1_apply xb shapeCasts_S8x128_S8x1x128x1 r u i w

/-! ## The first moment's scalar parts -/

/-- ℓ² + ε. -/
theorem den1_at : k0_pay9 (F := Ideal) ls (ix4 u o i w) = len2 ls o i + inVar := by
  show k0_pay4 (F := Ideal) ls (ix4 u o i w) + inVar = _
  rw [len2_at]

/-- s · √(ℓ² / (ℓ² + ε)). -/
theorem amp1_at : k0_pay10 (F := Ideal) ls lv (ix4 u o i w)
    = sigVar lv o i * Ideal.sqrt (Ideal.div (len2 ls o i) (len2 ls o i + inVar)) := by
  show k0_pay5 (F := Ideal) lv (ix4 u o i w)
      * Ideal.sqrt (Ideal.div (k0_pay4 (F := Ideal) ls (ix4 u o i w)) (k0_pay9 (F := Ideal) ls (ix4 u o i w))) = _
  rw [sig4_at, len2_at, den1_at]

/-- −(x − z)² / (2 (ℓ² + ε)): the body subtracts the square from zero. -/
theorem arg1_at : k0_pay11 (F := Ideal) xb z ls (ix4 r o i m)
    = Ideal.div (negSq (fun i' => xb (ix2 r i')) z o i m) (two * (len2 ls o i + inVar)) := by
  unfold k0_pay11 negSq
  simp only [divf_apply, subf_apply, mulf_apply, broadcast_apply, broadcastTo_r1b1_rabc_apply, broadcastTo_1abc_rabc_apply,
    broadcastTo_1ab1_rabc_apply, row_at, loc_at, den1_at, Ideal.ofBits_def, Ideal.ofBits_zero_f32, zero_sub]

/-! ## The edge's mean, and the row's -/

theorem edgeMean_at :
    k0_pay12 (F := Ideal) (k0_pay6 lv) (k0_pay7 qmu) (k0_pay10 ls lv) (k0_pay11 xb z ls) (ix3 r o i)
      = edgeMean (fun i' => xb (ix2 r i')) z qmu ls lv o i := by
  unfold k0_pay12 edgeMean psi1
  simp only [divf_apply, broadcastTo_1ab_rab_apply, sig3_at]
  rw [multiReduction_add_axis3_apply]
  simp only [mulf_apply, exp_apply, broadcastTo_1ab1_rabc_apply, broadcastTo_1abc_rabc_apply, mu_at, amp1_at, arg1_at]

theorem rowMean_at :
    k0_pay13 (F := Ideal) (k0_pay6 lv) (k0_pay7 qmu) (k0_pay10 ls lv) (k0_pay11 xb z ls) (ix2 r o)
      = rowMean (fun i' => xb (ix2 r i')) z qmu ls lv o := by
  unfold k0_pay13 rowMean
  dsimp only
  rw [multiReduction_add_axis2_apply]
  simp only [edgeMean_at]

/-! ## The edge's variance, and the row's -/

theorem rowVar_at :
    k0_pay14 (F := Ideal) (k0_pay2 xb) (k0_pay3 z) (k0_pay4 ls) (k0_pay5 lv) (k0_pay6 lv) (k0_pay7 qmu) (k0_pay8 qlv)
        (k0_pay10 ls lv) (k0_pay11 xb z ls) (ix2 r o)
      = rowVar (fun i' => xb (ix2 r i')) z qmu qlv ls lv o := by
  unfold k0_pay14 rowVar
  dsimp only
  rw [multiReduction_add_axis2_apply]
  refine Finset.sum_congr rfl fun i _ => ?_
  unfold edgeVar psi2 negSq
  simp only [maximumf_apply, subf_apply, addf_apply, divf_apply, mulf_apply, broadcast_apply, broadcastTo_1ab_rab_apply,
    sig3_at, edgeMean_at, Ideal.ofBits_def]
  rw [multiReduction_add_axis3_apply, multiReduction_add_axis3_apply]
  simp only [mulf_apply, addf_apply, subf_apply, divf_apply, exp_apply, sqrt_apply, broadcast_apply,
    broadcastTo_1ab1_rabc_apply, broadcastTo_1abc_rabc_apply, broadcastTo_r1b1_rabc_apply, row_at, loc_at, len2_at, sig4_at,
    mu_at, postVar_at, Ideal.ofBits_def, Ideal.ofBits_zero_f32, zero_sub]

end Cert.KernelIdeal.Rows

end
-- ==== Proof.Whole.lean ====
/-
  From the blocks to the arrays.

  The grid has 16 points. At point t the inputs' window holds rows 8t … 8t+7 of the inputs and each parameter window the
  whole of its table (its block index is 0 on every axis); the two output windows write rows 8t … 8t+7 of the two
  results. So what point t writes back is, entry (p, q) of the block, the specification's row quantity of row 8t+p at
  output q — the body's value on the block (Rows) with the block's row recognised as that row of the inputs — which is
  block t of the specification's whole tables `meanOut` and `varOut`. The sixteen blocks cover all 128 rows (row n lies in
  block n / 8), so after the run each result array is its table, whatever it held before.
-/
import proofs.«164799_j59416577572914_1_alg».proof.Proof.Gen.KernelIdeal.Value
import proofs.«164799_j59416577572914_1_alg».proof.Proof.KernelRows

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Moments
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The arrays and the blocks, at their literal types -/

/-- The inputs, and the five parameter tables, as the region finds them. -/
abbrev xArr (c : Dev nD) : FVec Ideal S128x128 .f32 := V m c main_arg0
abbrev zArr (c : Dev nD) : FVec Ideal S128x128x32 .f32 := V m c main_arg1
abbrev muArr (c : Dev nD) : FVec Ideal S128x128x32 .f32 := V m c main_arg2
abbrev qlvArr (c : Dev nD) : FVec Ideal S128x128x32 .f32 := V m c main_arg3
abbrev lsArr (c : Dev nD) : FVec Ideal S128x128 .f32 := V m c main_arg4
abbrev lvArr (c : Dev nD) : FVec Ideal S128x128 .f32 := V m c main_arg5

/-- Their blocks at point t. -/
abbrev xBlk (c : Dev nD) (t : Fin cfg0.N) : FVec Ideal S8x128 .f32 := iblk m c 0 t
abbrev zBlk (c : Dev nD) (t : Fin cfg0.N) : FVec Ideal S128x128x32 .f32 := iblk m c 1 t
abbrev muBlk (c : Dev nD) (t : Fin cfg0.N) : FVec Ideal S128x128x32 .f32 := iblk m c 2 t
abbrev qlvBlk (c : Dev nD) (t : Fin cfg0.N) : FVec Ideal S128x128x32 .f32 := iblk m c 3 t
abbrev lsBlk (c : Dev nD) (t : Fin cfg0.N) : FVec Ideal S128x128 .f32 := iblk m c 4 t
abbrev lvBlk (c : Dev nD) (t : Fin cfg0.N) : FVec Ideal S128x128 .f32 := iblk m c 5 t

/-! ## Where each window's block lies -/

/-- The printed index maps, decided over the 16 points: the inputs' and both results' block row is the point itself,
    every other block index is 0. -/
theorem idx_facts : ∀ t : Fin cfg0.N, t.val ≤ 15
    ∧ win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Every block row 0 … 15 is some point's. -/
theorem idx_onto : ∀ q0 : Fin 16, ∃ t : Fin cfg0.N, t.val = q0.val :=
  (by decide +kernel : ∀ q0 : Fin 16, ∃ t : Fin grid0.N, t.val = q0.val)

/-- Row 8t + p of the arrays. -/
abbrev rowOf (t : Fin cfg0.N) (p : Fin 8) : Fin 128 := ⟨t.val * 8 + p.val, by have := (idx_facts t).1; omega⟩

/-- The inputs' block at point t holds rows 8t … 8t+7 of the inputs. -/
theorem xBlk_at (c : Dev nD) (t : Fin cfg0.N) (p : Fin 8) (i : Fin 128) :
    xBlk m c t (ix2 p i) = xArr m c (ix2 (rowOf t p) i) := by
  show V m c main_arg0 (((cfg0.win 0).blk t).view.emb (ix2 p i)) = V m c main_arg0 (ix2 (rowOf t p) i)
  refine congrArg (V m c main_arg0) (funext fun a => Fin.ext ?_)
  obtain ⟨_, e0, e1, _⟩ := idx_facts t
  match a with
  | ⟨0, _⟩ => show win0_0.index t (0 : Fin 2) * 8 + 1 * p.val = t.val * 8 + p.val; omega
  | ⟨1, _⟩ => show win0_0.index t (1 : Fin 2) * 128 + 1 * i.val = i.val; omega

/-- Each parameter window's block is its whole table. -/
theorem zBlk_eq (c : Dev nD) (t : Fin cfg0.N) : zBlk m c t = zArr m c := by
  funext y
  show V m c main_arg1 (((cfg0.win 1).blk t).view.emb y) = V m c main_arg1 y
  refine congrArg (V m c main_arg1) (funext fun a => Fin.ext ?_)
  obtain ⟨_, _, _, e0, e1, e2, _⟩ := idx_facts t
  match a with
  | ⟨0, _⟩ => show win0_1.index t (0 : Fin 3) * 128 + 1 * (y 0).val = (y 0).val; omega
  | ⟨1, _⟩ => show win0_1.index t (1 : Fin 3) * 128 + 1 * (y 1).val = (y 1).val; omega
  | ⟨2, _⟩ => show win0_1.index t (2 : Fin 3) * 32 + 1 * (y 2).val = (y 2).val; omega

theorem muBlk_eq (c : Dev nD) (t : Fin cfg0.N) : muBlk m c t = muArr m c := by
  funext y
  show V m c main_arg2 (((cfg0.win 2).blk t).view.emb y) = V m c main_arg2 y
  refine congrArg (V m c main_arg2) (funext fun a => Fin.ext ?_)
  obtain ⟨_, _, _, _, _, _, e0, e1, e2, _⟩ := idx_facts t
  match a with
  | ⟨0, _⟩ => show win0_2.index t (0 : Fin 3) * 128 + 1 * (y 0).val = (y 0).val; omega
  | ⟨1, _⟩ => show win0_2.index t (1 : Fin 3) * 128 + 1 * (y 1).val = (y 1).val; omega
  | ⟨2, _⟩ => show win0_2.index t (2 : Fin 3) * 32 + 1 * (y 2).val = (y 2).val; omega

theorem qlvBlk_eq (c : Dev nD) (t : Fin cfg0.N) : qlvBlk m c t = qlvArr m c := by
  funext y
  show V m c main_arg3 (((cfg0.win 3).blk t).view.emb y) = V m c main_arg3 y
  refine congrArg (V m c main_arg3) (funext fun a => Fin.ext ?_)
  obtain ⟨_, _, _, _, _, _, _, _, _, e0, e1, e2, _⟩ := idx_facts t
  match a with
  | ⟨0, _⟩ => show win0_3.index t (0 : Fin 3) * 128 + 1 * (y 0).val = (y 0).val; omega
  | ⟨1, _⟩ => show win0_3.index t (1 : Fin 3) * 128 + 1 * (y 1).val = (y 1).val; omega
  | ⟨2, _⟩ => show win0_3.index t (2 : Fin 3) * 32 + 1 * (y 2).val = (y 2).val; omega

theorem lsBlk_eq (c : Dev nD) (t : Fin cfg0.N) : lsBlk m c t = lsArr m c := by
  funext y
  show V m c main_arg4 (((cfg0.win 4).blk t).view.emb y) = V m c main_arg4 y
  refine congrArg (V m c main_arg4) (funext fun a => Fin.ext ?_)
  obtain ⟨_, _, _, _, _, _, _, _, _, _, _, _, e0, e1, _⟩ := idx_facts t
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem lvBlk_eq (c : Dev nD) (t : Fin cfg0.N) : lvBlk m c t = lvArr m c := by
  funext y
  show V m c main_arg5 (((cfg0.win 5).blk t).view.emb y) = V m c main_arg5 y
  refine congrArg (V m c main_arg5) (funext fun a => Fin.ext ?_)
  obtain ⟨_, _, _, _, _, _, _, _, _, _, _, _, _, _, e0, e1, _⟩ := idx_facts t
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- Entry (p, q) of either result's block at point t is entry (8t + p, q) of its array. -/
theorem emb6_at (t : Fin cfg0.N) (p : Fin 8) (q : Fin 128) :
    ((cfg0.win 6).blk t).view.emb (ix2 p q) = ix2 (rowOf t p) q := by
  funext a; apply Fin.ext
  obtain ⟨_, _, _, _, _, _, _, _, _, _, _, _, _, _, _, _, e0, e1, _⟩ := idx_facts t
  match a with
  | ⟨0, _⟩ => show win0_6.index t (0 : Fin 2) * 8 + 1 * p.val = t.val * 8 + p.val; omega
  | ⟨1, _⟩ => show win0_6.index t (1 : Fin 2) * 128 + 1 * q.val = q.val; omega

theorem emb7_at (t : Fin cfg0.N) (p : Fin 8) (q : Fin 128) :
    ((cfg0.win 7).blk t).view.emb (ix2 p q) = ix2 (rowOf t p) q := by
  funext a; apply Fin.ext
  obtain ⟨_, _, _, _, _, _, _, _, _, _, _, _, _, _, _, _, _, _, e0, e1⟩ := idx_facts t
  match a with
  | ⟨0, _⟩ => show win0_7.index t (0 : Fin 2) * 8 + 1 * p.val = t.val * 8 + p.val; omega
  | ⟨1, _⟩ => show win0_7.index t (1 : Fin 2) * 128 + 1 * q.val = q.val; omega

/-! ## What each point writes back -/

/-- Point t writes back block t of the table of means. -/
theorem flushed6_eq (c : Dev nD) (t : Fin cfg0.N) :
    (dats m 0 c).flushed 6 t
      = ((cfg0.win 6).blk t).view.read (Elt Ideal) (meanOut (xArr m c) (zArr m c) (muArr m c) (lsArr m c) (lvArr m c)) := by
  rw [Value.flushed6]
  unfold out0_6
  rw [View.canon_unit_zero hz2]
  simp only [View.ld_unit_zero (S := S8x128) hz2, View.ld_unit_zero (S := S128x128x32) hz3, View.ld_unit_zero (S := S128x128) hz2]
  refine funext fun (j : S8x128.Idx) => ?_
  obtain ⟨p, q, rfl⟩ : ∃ (p : Fin 8) (q : Fin 128), j = ix2 p q := ⟨j 0, j 1, eq_ix2 j⟩
  show k0_pay13 (F := Ideal) (k0_pay6 (lvBlk m c t)) (k0_pay7 (muBlk m c t)) (k0_pay10 (lsBlk m c t) (lvBlk m c t))
      (k0_pay11 (xBlk m c t) (zBlk m c t) (lsBlk m c t)) (ix2 p q)
    = meanOut (xArr m c) (zArr m c) (muArr m c) (lsArr m c) (lvArr m c) (((cfg0.win 6).blk t).view.emb (ix2 p q))
  rw [Rows.rowMean_at, emb6_at, meanOut_apply, zBlk_eq, muBlk_eq, lsBlk_eq, lvBlk_eq]
  exact congrArg (fun xr => rowMean xr (zArr m c) (muArr m c) (lsArr m c) (lvArr m c) q)
    (funext fun i' => xBlk_at m c t p i')

/-- Point t writes back block t of the table of variances. -/
theorem flushed7_eq (c : Dev nD) (t : Fin cfg0.N) :
    (dats m 0 c).flushed 7 t
      = ((cfg0.win 7).blk t).view.read (Elt Ideal)
          (varOut (xArr m c) (zArr m c) (muArr m c) (qlvArr m c) (lsArr m c) (lvArr m c)) := by
  rw [Value.flushed7]
  unfold out0_7
  rw [View.canon_unit_zero hz2]
  simp only [View.ld_unit_zero (S := S8x128) hz2, View.ld_unit_zero (S := S128x128x32) hz3, View.ld_unit_zero (S := S128x128) hz2]
  refine funext fun (j : S8x128.Idx) => ?_
  obtain ⟨p, q, rfl⟩ : ∃ (p : Fin 8) (q : Fin 128), j = ix2 p q := ⟨j 0, j 1, eq_ix2 j⟩
  show k0_pay14 (F := Ideal) (k0_pay2 (xBlk m c t)) (k0_pay3 (zBlk m c t)) (k0_pay4 (lsBlk m c t)) (k0_pay5 (lvBlk m c t))
      (k0_pay6 (lvBlk m c t)) (k0_pay7 (muBlk m c t)) (k0_pay8 (qlvBlk m c t)) (k0_pay10 (lsBlk m c t) (lvBlk m c t))
      (k0_pay11 (xBlk m c t) (zBlk m c t) (lsBlk m c t)) (ix2 p q)
    = varOut (xArr m c) (zArr m c) (muArr m c) (qlvArr m c) (lsArr m c) (lvArr m c) (((cfg0.win 7).blk t).view.emb (ix2 p q))
  rw [Rows.rowVar_at, emb7_at, varOut_apply, zBlk_eq, muBlk_eq, qlvBlk_eq, lsBlk_eq, lvBlk_eq]
  exact congrArg (fun xr => rowVar xr (zArr m c) (muArr m c) (qlvArr m c) (lsArr m c) (lvArr m c) q)
    (funext fun i' => xBlk_at m c t p i')

/-! ## The blocks cover the arrays -/

/-- An index of a result array is in point t's block iff each coordinate is in the block's range on its axis. -/
theorem mem_blk6 (t : Fin cfg0.N) (i : S128x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v0_0).slice (win0_6.rect t)).set ↔ _
  rw [View.set_slice_whole, Rect.mem_set_unit]
  exact Iff.rfl

theorem mem_blk7 (t : Fin cfg0.N) (i : S128x128.Idx) :
    i ∈ ((cfg0.win 7).blk t).view.set ↔ ∀ a : Fin 2, win0_7.index t a * S8x128.size a ≤ (i a).val ∧ (i a).val < win0_7.index t a * S8x128.size a + S8x128.size a := by
  show i ∈ ((View.whole main_v0_1).slice (win0_7.rect t)).set ↔ _
  rw [View.set_slice_whole, Rect.mem_set_unit]
  exact Iff.rfl

/-- Row n of the means lies in block n / 8. -/
theorem cover6 (i : S128x128.Idx) : ∃ t : Fin cfg0.N, (cfg0.win 6).flush t = true ∧ i ∈ ((cfg0.win 6).blk t).view.set := by
  have hi0 : (i 0).val < 128 := (i 0).isLt
  have hi1 : (i 1).val < 128 := (i 1).isLt
  obtain ⟨t, ht⟩ := idx_onto ⟨(i 0).val / 8, by omega⟩
  have ht' : t.val = (i 0).val / 8 := ht
  obtain ⟨_, _, _, _, _, _, _, _, _, _, _, _, _, _, _, _, e0, e1, _⟩ := idx_facts t
  refine ⟨t, flush0_6 t, ?_⟩
  rw [mem_blk6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-- Row n of the variances lies in block n / 8. -/
theorem cover7 (i : S128x128.Idx) : ∃ t : Fin cfg0.N, (cfg0.win 7).flush t = true ∧ i ∈ ((cfg0.win 7).blk t).view.set := by
  have hi0 : (i 0).val < 128 := (i 0).isLt
  have hi1 : (i 1).val < 128 := (i 1).isLt
  obtain ⟨t, ht⟩ := idx_onto ⟨(i 0).val / 8, by omega⟩
  have ht' : t.val = (i 0).val / 8 := ht
  obtain ⟨_, _, _, _, _, _, _, _, _, _, _, _, _, _, _, _, _, _, e0, e1⟩ := idx_facts t
  refine ⟨t, flush0_7 t, ?_⟩
  rw [mem_blk7]
  intro a
  match a with
  | ⟨0, _⟩ => show win0_7.index t (0 : Fin 2) * 8 ≤ (i 0).val ∧ (i 0).val < win0_7.index t (0 : Fin 2) * 8 + 8; omega
  | ⟨1, _⟩ => show win0_7.index t (1 : Fin 2) * 128 ≤ (i 1).val ∧ (i 1).val < win0_7.index t (1 : Fin 2) * 128 + 128; omega

/-! ## The arrays after the run, and the run -/

/-- After the run the first result array is the table of means of the arguments. -/
theorem final6 (c : Dev nD) : (dats m 0 c).arrAt 6 cfg0.N
    = meanOut (m ((c : Thread nD τ).loc main_arg0)) (m ((c : Thread nD τ).loc main_arg1)) (m ((c : Thread nD τ).loc main_arg2))
        (m ((c : Thread nD τ).loc main_arg4)) (m ((c : Thread nD τ).loc main_arg5)) :=
  (dats m 0 c).arrAt_eq_of_cover 6 _ (fun t _ => flushed6_eq m c t) cover6

/-- After the run the second result array is the table of variances of the arguments. -/
theorem final7 (c : Dev nD) : (dats m 0 c).arrAt 7 cfg0.N
    = varOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 7 _ (fun t _ => flushed7_eq m c t) cover7

/-- The kernel's run: it ends with the two result arrays at the specification's tables of the arguments, and the
    arguments as they were. -/
theorem run : θ_run defs (onTc (τ := τ) (main (F := Ideal))) ⟨m, fun _ => 0, ρ⟩ fun r => ∀ c : Dev nD,
      r.2.mem ((c : Thread nD τ).loc main_v0_0)
        = meanOut (m ((c : Thread nD τ).loc main_arg0)) (m ((c : Thread nD τ).loc main_arg1)) (m ((c : Thread nD τ).loc main_arg2))
            (m ((c : Thread nD τ).loc main_arg4)) (m ((c : Thread nD τ).loc main_arg5))
      ∧ r.2.mem ((c : Thread nD τ).loc main_v0_1)
        = varOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Whole

end
-- ==== Proof.RefRows.lean ====
/-
  The reference on the whole arrays, read at coordinates.

  The reference computes over the full box (n, o, i, m) of rows, outputs, inputs and inducing points. Its tables reach
  the box through chains of broadcasts; each broadcast, read at an index written by its coordinates, gives its operand
  at the coordinates it keeps (the first part below, one line per broadcast), and each sum over the last axis is the
  sum over that coordinate (the second part). With these, the two results at (n, o) unfold, operation by operation, to
  the specification's `rowMean` and `rowVar` of row n. Three spellings differ from the specification's and are equal on
  the extended reals: the input variance is written 0 + ε; 2ε is written 2 · (0 + ε), which is the single float 2ε
  (`two_mul_inVar`); and every sum starts from an explicit 0.
-/
import proofs.«164799_j59416577572914_1_alg».proof.Proof.Gen.ReferenceIdeal.Read
import proofs.«164799_j59416577572914_1_alg».proof.Proof.Spec

noncomputable section

namespace Cert.ReferenceIdeal.Rows

open Idealize.ShloMosaic Idealize.ShloMosaic.ValueIdx Cert.ReferenceIdeal Cert.ReferenceIdeal.Read Cert.Moments

/-- Two rank-2 indices are equal when their coordinates are. -/
local macro "coords2" : term => `(funext fun a => Fin.ext (by match a with | ⟨0, _⟩ => rfl | ⟨1, _⟩ => rfl))
/-- Two rank-3 indices are equal when their coordinates are. -/
local macro "coords3" : term => `(funext fun a => Fin.ext (by match a with | ⟨0, _⟩ => rfl | ⟨1, _⟩ => rfl | ⟨2, _⟩ => rfl))
/-- Two rank-4 indices are equal when their coordinates are. -/
local macro "coords4" : term =>
  `(funext fun a => Fin.ext (by match a with | ⟨0, _⟩ => rfl | ⟨1, _⟩ => rfl | ⟨2, _⟩ => rfl | ⟨3, _⟩ => rfl))

variable (x : FVec Ideal S128x128 .f32) (z qmu qlv : FVec Ideal S128x128x32 .f32) (ls lv : FVec Ideal S128x128 .f32)
variable (n o i : Fin 128) (m : Fin 32) (u w : Fin 1)

/-! ## Each broadcast at coordinates -/

-- a matrix over (row, input) seen at (row, ·, input, ·)
theorem v12_at : val_main_v12 (F := Ideal) x (ix4 n u i w) = x (ix2 n i) :=
  (val_main_v12_apply (F := Ideal) x _).trans (congrArg x coords2)
theorem v13_at : val_main_v13 (F := Ideal) (ix4 n u i w) = val_main_v2 (F := Ideal) (ix2 n i) :=
  (val_main_v13_apply (F := Ideal) _).trans (congrArg (val_main_v2 (F := Ideal)) coords2)
-- a matrix over (output, input) seen at (·, output, input, ·)
theorem v15_at : val_main_v15 (F := Ideal) ls (ix4 u o i w) = val_main_v14 (F := Ideal) ls (ix2 o i) :=
  (val_main_v15_apply (F := Ideal) ls _).trans (congrArg (val_main_v14 (F := Ideal) ls) coords2)
theorem v16_at : val_main_v16 (F := Ideal) lv (ix4 u o i w) = val_main_v8 (F := Ideal) lv (ix2 o i) :=
  (val_main_v16_apply (F := Ideal) lv _).trans (congrArg (val_main_v8 (F := Ideal) lv) coords2)
-- a table over (output, input, point) seen at (·, output, input, point)
theorem v17_at : val_main_v17 (F := Ideal) z (ix4 u o i m) = z (ix3 o i m) :=
  (val_main_v17_apply (F := Ideal) z _).trans (congrArg z coords3)
theorem v56_at : val_main_v56 (F := Ideal) qmu (ix4 u o i m) = qmu (ix3 o i m) :=
  (val_main_v56_apply (F := Ideal) qmu _).trans (congrArg qmu coords3)
theorem v66_at : val_main_v66 (F := Ideal) qmu qlv (ix4 u o i m) = val_main_v65 (F := Ideal) qmu qlv (ix3 o i m) :=
  (val_main_v66_apply (F := Ideal) qmu qlv _).trans (congrArg (val_main_v65 (F := Ideal) qmu qlv) coords3)
-- views repeated over the whole box
theorem v18_at : val_main_v18 (F := Ideal) x (ix4 n o i m) = val_main_v12 (F := Ideal) x (ix4 n (0 : Fin 1) i (0 : Fin 1)) :=
  (val_main_v18_apply (F := Ideal) x _).trans (congrArg (val_main_v12 (F := Ideal) x) coords4)
theorem v19_at : val_main_v19 (F := Ideal) z (ix4 n o i m) = val_main_v17 (F := Ideal) z (ix4 (0 : Fin 1) o i m) :=
  (val_main_v19_apply (F := Ideal) z _).trans (congrArg (val_main_v17 (F := Ideal) z) coords4)
theorem v57_at : val_main_v57 (F := Ideal) qmu (ix4 n o i m) = val_main_v56 (F := Ideal) qmu (ix4 (0 : Fin 1) o i m) :=
  (val_main_v57_apply (F := Ideal) qmu _).trans (congrArg (val_main_v56 (F := Ideal) qmu) coords4)
theorem v67_at : val_main_v67 (F := Ideal) qmu qlv (ix4 n o i m) = val_main_v66 (F := Ideal) qmu qlv (ix4 (0 : Fin 1) o i m) :=
  (val_main_v67_apply (F := Ideal) qmu qlv _).trans (congrArg (val_main_v66 (F := Ideal) qmu qlv) coords4)
-- views repeated over (row, output, input, ·)
theorem v21_at : val_main_v21 (F := Ideal) ls (ix4 n o i w) = val_main_v15 (F := Ideal) ls (ix4 (0 : Fin 1) o i (0 : Fin 1)) :=
  (val_main_v21_apply (F := Ideal) ls _).trans (congrArg (val_main_v15 (F := Ideal) ls) coords4)
theorem v24_at : val_main_v24 (F := Ideal) ls (ix4 n o i w) = val_main_v15 (F := Ideal) ls (ix4 (0 : Fin 1) o i (0 : Fin 1)) :=
  (val_main_v24_apply (F := Ideal) ls _).trans (congrArg (val_main_v15 (F := Ideal) ls) coords4)
theorem v40_at : val_main_v40 (F := Ideal) ls (ix4 n o i w) = val_main_v15 (F := Ideal) ls (ix4 (0 : Fin 1) o i (0 : Fin 1)) :=
  (val_main_v40_apply (F := Ideal) ls _).trans (congrArg (val_main_v15 (F := Ideal) ls) coords4)
theorem v44_at : val_main_v44 (F := Ideal) ls (ix4 n o i w) = val_main_v15 (F := Ideal) ls (ix4 (0 : Fin 1) o i (0 : Fin 1)) :=
  (val_main_v44_apply (F := Ideal) ls _).trans (congrArg (val_main_v15 (F := Ideal) ls) coords4)
theorem v27_at : val_main_v27 (F := Ideal) lv (ix4 n o i w) = val_main_v16 (F := Ideal) lv (ix4 (0 : Fin 1) o i (0 : Fin 1)) :=
  (val_main_v27_apply (F := Ideal) lv _).trans (congrArg (val_main_v16 (F := Ideal) lv) coords4)
theorem v47_at : val_main_v47 (F := Ideal) lv (ix4 n o i w) = val_main_v43 (F := Ideal) lv (ix4 (0 : Fin 1) o i (0 : Fin 1)) :=
  (val_main_v47_apply (F := Ideal) lv _).trans (congrArg (val_main_v43 (F := Ideal) lv) coords4)
theorem v22_at : val_main_v22 (F := Ideal) (ix4 n o i w) = val_main_v13 (F := Ideal) (ix4 n (0 : Fin 1) i (0 : Fin 1)) :=
  (val_main_v22_apply (F := Ideal) _).trans (congrArg (val_main_v13 (F := Ideal)) coords4)
theorem v41_at : val_main_v41 (F := Ideal) (ix4 n o i w) = val_main_v39 (F := Ideal) (ix4 n (0 : Fin 1) i (0 : Fin 1)) :=
  (val_main_v41_apply (F := Ideal) _).trans (congrArg (val_main_v39 (F := Ideal)) coords4)
-- what does not depend on the point, repeated over the points
theorem v33_at : val_main_v33 (F := Ideal) ls (ix4 n o i m) = val_main_v32 (F := Ideal) ls (ix4 n o i (0 : Fin 1)) :=
  (val_main_v33_apply (F := Ideal) ls _).trans (congrArg (val_main_v32 (F := Ideal) ls) coords4)
theorem v36_at : val_main_v36 (F := Ideal) ls lv (ix4 n o i m) = val_main_v28 (F := Ideal) ls lv (ix4 n o i (0 : Fin 1)) :=
  (val_main_v36_apply (F := Ideal) ls lv _).trans (congrArg (val_main_v28 (F := Ideal) ls lv) coords4)
theorem v51_at : val_main_v51 (F := Ideal) ls (ix4 n o i m) = val_main_v42 (F := Ideal) ls (ix4 n o i (0 : Fin 1)) :=
  (val_main_v51_apply (F := Ideal) ls _).trans (congrArg (val_main_v42 (F := Ideal) ls) coords4)
theorem v54_at : val_main_v54 (F := Ideal) ls lv (ix4 n o i m) = val_main_v48 (F := Ideal) ls lv (ix4 n o i (0 : Fin 1)) :=
  (val_main_v54_apply (F := Ideal) ls lv _).trans (congrArg (val_main_v48 (F := Ideal) ls lv) coords4)
-- the signal variance over (row, output, input)
theorem v60_at : val_main_v60 (F := Ideal) lv (ix3 u o i) = val_main_v8 (F := Ideal) lv (ix2 o i) :=
  (val_main_v60_apply (F := Ideal) lv _).trans (congrArg (val_main_v8 (F := Ideal) lv) coords2)
theorem v63_at : val_main_v63 (F := Ideal) lv (ix3 u o i) = val_main_v8 (F := Ideal) lv (ix2 o i) :=
  (val_main_v63_apply (F := Ideal) lv _).trans (congrArg (val_main_v8 (F := Ideal) lv) coords2)
theorem v61_at : val_main_v61 (F := Ideal) lv (ix3 n o i) = val_main_v60 (F := Ideal) lv (ix3 (0 : Fin 1) o i) :=
  (val_main_v61_apply (F := Ideal) lv _).trans (congrArg (val_main_v60 (F := Ideal) lv) coords3)
theorem v71_at : val_main_v71 (F := Ideal) lv (ix3 n o i) = val_main_v70 (F := Ideal) lv (ix3 (0 : Fin 1) o i) :=
  (val_main_v71_apply (F := Ideal) lv _).trans (congrArg (val_main_v70 (F := Ideal) lv) coords3)
theorem v74_at : val_main_v74 (F := Ideal) lv (ix3 n o i) = val_main_v63 (F := Ideal) lv (ix3 (0 : Fin 1) o i) :=
  (val_main_v74_apply (F := Ideal) lv _).trans (congrArg (val_main_v63 (F := Ideal) lv) coords3)
theorem v76_at : val_main_v76 (F := Ideal) lv (ix3 n o i) = val_main_v63 (F := Ideal) lv (ix3 (0 : Fin 1) o i) :=
  (val_main_v76_apply (F := Ideal) lv _).trans (congrArg (val_main_v63 (F := Ideal) lv) coords3)

/-! ## Each sum at coordinates -/

theorem v59_at : val_main_v59 (F := Ideal) x z qmu ls lv (ix3 n o i)
    = Ideal.ofBits .f32 0x00000000#32 + ∑ k : Fin 32, val_main_v58 (F := Ideal) x z qmu ls lv (ix4 n o i k) :=
  (val_main_v59_apply x z qmu ls lv _).trans
    (congrArg (_ + ·) (Finset.sum_congr rfl fun k _ => congrArg (val_main_v58 (F := Ideal) x z qmu ls lv) coords4))
theorem v69_at : val_main_v69 (F := Ideal) x z qmu qlv ls lv (ix3 n o i)
    = Ideal.ofBits .f32 0x00000000#32 + ∑ k : Fin 32, val_main_v68 (F := Ideal) x z qmu qlv ls lv (ix4 n o i k) :=
  (val_main_v69_apply x z qmu qlv ls lv _).trans
    (congrArg (_ + ·) (Finset.sum_congr rfl fun k _ => congrArg (val_main_v68 (F := Ideal) x z qmu qlv ls lv) coords4))
theorem v73_at : val_main_v73 (F := Ideal) x z ls lv (ix3 n o i)
    = Ideal.ofBits .f32 0x00000000#32 + ∑ k : Fin 32, val_main_v55 (F := Ideal) x z ls lv (ix4 n o i k) :=
  (val_main_v73_apply x z ls lv _).trans
    (congrArg (_ + ·) (Finset.sum_congr rfl fun k _ => congrArg (val_main_v55 (F := Ideal) x z ls lv) coords4))
theorem v83_at : val_main_v83 (F := Ideal) x z qmu ls lv (ix2 n o)
    = Ideal.ofBits .f32 0x00000000#32 + ∑ k : Fin 128, val_main_v62 (F := Ideal) x z qmu ls lv (ix3 n o k) :=
  (val_main_v83_apply x z qmu ls lv _).trans
    (congrArg (_ + ·) (Finset.sum_congr rfl fun k _ => congrArg (val_main_v62 (F := Ideal) x z qmu ls lv) coords3))
theorem v84_at : val_main_v84 (F := Ideal) x z qmu qlv ls lv (ix2 n o)
    = Ideal.ofBits .f32 0x00000000#32 + ∑ k : Fin 128, val_main_v82 (F := Ideal) x z qmu qlv ls lv (ix3 n o k) :=
  (val_main_v84_apply x z qmu qlv ls lv _).trans
    (congrArg (_ + ·) (Finset.sum_congr rfl fun k _ => congrArg (val_main_v82 (F := Ideal) x z qmu qlv ls lv) coords3))

/-! ## The per-edge quantities, and the two results -/

/-- The edge's mean for row n. -/
theorem edgeMean_at : val_main_v62 (F := Ideal) x z qmu ls lv (ix3 n o i)
    = edgeMean (fun i' => x (ix2 n i')) z qmu ls lv o i := by
  unfold edgeMean psi1 negSq sigVar len2
  simp only [val_main_v62_apply, v59_at, val_main_v58_apply, val_main_v37_apply, v36_at, val_main_v28_apply, v27_at, v16_at,
    val_main_v8_apply, val_main_v6_apply, val_main_v7_apply, val_main_cst_2_apply, val_main_v26_apply, val_main_v25_apply,
    v24_at, v15_at, val_main_v14_apply, val_main_v11_apply, val_main_v9_apply, val_main_v10_apply, val_main_cst_3_apply,
    val_main_v23_apply, v21_at, v22_at, v13_at, val_main_v2_apply, val_main_v0_apply, val_main_v1_apply, val_main_cst_apply,
    val_main_cst_0_apply, val_main_v35_apply, val_main_v34_apply, val_main_v30_apply, val_main_v29_apply, val_main_v20_apply,
    v18_at, v12_at, v19_at, v17_at, v33_at, val_main_v32_apply, val_main_v31_apply, val_main_cst_4_apply, v57_at, v56_at,
    v61_at, v60_at,
    Ideal.ofBits_def, Ideal.mulf_def, Ideal.addf_def, Ideal.subf_def, Ideal.maximumf_def, Ideal.hostDivf_def,
    Ideal.hostUnary_sqrt_def, Ideal.hostUnary_exp_def, Ideal.hostNegf_def, Ideal.negf_def, Ideal.ofBits_zero_f32, zero_add]

/-- The first result at (n, o) is row n's mean at output o. -/
theorem rowMean_at : val_main_v83 (F := Ideal) x z qmu ls lv (ix2 n o)
    = rowMean (fun i' => x (ix2 n i')) z qmu ls lv o := by
  unfold rowMean
  simp only [v83_at, edgeMean_at, Ideal.ofBits_zero_f32, zero_add]

/-- The second result at (n, o) is row n's variance at output o. -/
theorem rowVar_at : val_main_v84 (F := Ideal) x z qmu qlv ls lv (ix2 n o)
    = rowVar (fun i' => x (ix2 n i')) z qmu qlv ls lv o := by
  unfold rowVar edgeVar psi2 negSq postVar sigVar len2
  simp only [v84_at, val_main_v82_apply, val_main_v81_apply, val_main_cst_9_apply, val_main_v80_apply, val_main_v79_apply,
    edgeMean_at, val_main_v78_apply, val_main_v77_apply, v76_at, v63_at, val_main_v75_apply, v73_at, v74_at,
    val_main_v72_apply, v69_at, v71_at, val_main_v70_apply, val_main_v68_apply, v67_at, v66_at, val_main_v65_apply,
    val_main_v64_apply, val_main_v5_apply, val_main_v3_apply, val_main_v4_apply, val_main_cst_1_apply,
    val_main_v55_apply, v54_at, val_main_v48_apply, v47_at, val_main_v43_apply, v16_at, val_main_v8_apply,
    val_main_v6_apply, val_main_v7_apply, val_main_cst_2_apply, val_main_v46_apply, val_main_v45_apply, v44_at, v15_at,
    val_main_v14_apply, val_main_v11_apply, val_main_v9_apply, val_main_v10_apply, val_main_cst_3_apply,
    val_main_v42_apply, v40_at, v41_at, val_main_v39_apply, val_main_v38_apply, val_main_cst_5_apply, v13_at,
    val_main_v2_apply, val_main_v0_apply, val_main_v1_apply, val_main_cst_apply, val_main_cst_0_apply,
    val_main_v53_apply, val_main_v52_apply, val_main_v50_apply, val_main_v49_apply, val_main_v20_apply, v18_at, v12_at,
    v19_at, v17_at, v51_at,
    Ideal.ofBits_def, Ideal.mulf_def, Ideal.addf_def, Ideal.subf_def, Ideal.maximumf_def, Ideal.hostDivf_def,
    Ideal.hostUnary_sqrt_def, Ideal.hostUnary_exp_def, Ideal.hostNegf_def, Ideal.negf_def, Ideal.ofBits_zero_f32, zero_add,
    two_mul_inVar]

/-! ## The two results as whole tables -/

/-- The reference's first result is the table of means. -/
theorem mean_eq : val_main_v83 (F := Ideal) x z qmu ls lv = meanOut x z qmu ls lv := by
  funext j
  obtain ⟨n, o, rfl⟩ : ∃ (n o : Fin 128), j = ix2 n o := ⟨j 0, j 1, eq_ix2 j⟩
  rw [rowMean_at, meanOut_apply]

/-- The reference's second result is the table of variances. -/
theorem var_eq : val_main_v84 (F := Ideal) x z qmu qlv ls lv = varOut x z qmu qlv ls lv := by
  funext j
  obtain ⟨n, o, rfl⟩ : ∃ (n o : Fin 128), j = ix2 n o := ⟨j 0, j 1, eq_ix2 j⟩
  rw [rowVar_at, varOut_apply]

end Cert.ReferenceIdeal.Rows

end
-- ==== Proof.lean ====
/-
  A layer of Gaussian-process edges with uncertain inputs: for every row n of inputs and every output o, the mean and the
  variance obtained by matching moments over the inputs i and the inducing points m of edge (o, i).

  The kernel walks the 128 rows in 16 blocks of 8 and keeps the five parameter tables whole at every step; the reference
  computes over all rows at once. On the extended reals both perform the same operations in the same grouping, entry by
  entry (Proof/Spec.lean states them once, by coordinates: `meanOut`, `varOut`). The kernel's body on one block is
  Proof/KernelRows.lean, its blocks put together Proof/Whole.lean, the reference Proof/RefRows.lean. They spell three
  things differently — the kernel negates by subtracting from zero and writes 2ε as one float, the reference writes the
  input variance as 0 + ε, doubles it, and starts each sum from 0 — and these agree on the extended reals with no side
  condition, the doubled float being exactly the single one. No law of arithmetic that fails at an infinity is used, so
  the precondition (finite inputs) is never opened.

  The three frames are the generated runs; nothing was rewritten between the kernel and its idealization, so there is
  nothing to preserve.
-/
import proofs.«164799_j59416577572914_1_alg».proof.Defs
import proofs.«164799_j59416577572914_1_alg».proof.Proof.Gen.Kernel
import proofs.«164799_j59416577572914_1_alg».proof.Proof.Gen.Kernel.Skeleton
import proofs.«164799_j59416577572914_1_alg».proof.Proof.Gen.Kernel.Launch
import proofs.«164799_j59416577572914_1_alg».proof.Proof.Gen.Kernel.Points
import proofs.«164799_j59416577572914_1_alg».proof.Proof.Gen.Kernel.Frame
import proofs.«164799_j59416577572914_1_alg».proof.Proof.Gen.KernelIdeal
import proofs.«164799_j59416577572914_1_alg».proof.Proof.Gen.KernelIdeal.Skeleton
import proofs.«164799_j59416577572914_1_alg».proof.Proof.Gen.KernelIdeal.Launch
import proofs.«164799_j59416577572914_1_alg».proof.Proof.Gen.KernelIdeal.Points
import proofs.«164799_j59416577572914_1_alg».proof.Proof.Gen.KernelIdeal.Frame
import proofs.«164799_j59416577572914_1_alg».proof.Proof.Gen.ReferenceIdeal
import proofs.«164799_j59416577572914_1_alg».proof.Proof.Gen.Pre_finite_inputs
import proofs.«164799_j59416577572914_1_alg».proof.Proof.Gen.KernelIdeal.Value
import proofs.«164799_j59416577572914_1_alg».proof.Proof.Gen.ReferenceIdeal.Run
import proofs.«164799_j59416577572914_1_alg».proof.Proof.Gen.ReferenceIdeal.Read
import proofs.«164799_j59416577572914_1_alg».proof.Proof.Whole
import proofs.«164799_j59416577572914_1_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs, and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the six arguments, the kernel ends with its two result arrays at the tables of means
    and of variances of the arguments (Proof/Whole.lean), and the reference's two results are those same tables
    (Proof/RefRows.lean). -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v83_eq, (hagree c).1, (hagree c).2.1, (hagree c).2.2.1, (hagree c).2.2.2.2.1,
      (hagree c).2.2.2.2.2]
    exact Cert.ReferenceIdeal.Rows.mean_eq _ _ _ _ _
  · rw [Cert.ReferenceIdeal.Read.val_main_v84_eq, (hagree c).1, (hagree c).2.1, (hagree c).2.2.1, (hagree c).2.2.2.1,
      (hagree c).2.2.2.2.1, (hagree c).2.2.2.2.2]
    exact Cert.ReferenceIdeal.Rows.var_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
